-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S3x1x192x192x192 : Shape := ⟨5, ![3, 1, 192, 192, 192]⟩
abbrev S3 : Shape := ⟨1, ![3]⟩
abbrev S_ : Shape := ⟨0, ![]⟩

class Facts : Prop where
  bcast_S_S3x1x192x192x192 : S_.BroadcastsInDim S3x1x192x192x192 (![] : Fin 0 → Fin S3x1x192x192x192.rank)
  reducesTo_S3x1x192x192x192_S_d0_1_2_3_4 : S3x1x192x192x192.ReducesTo [0, 1, 2, 3, 4] S_
  h_S_ : 0 < S_.numel
  bcast_S_S3 : S_.BroadcastsInDim S3 (![] : Fin 0 → Fin S3.rank)
  reducesTo_S3_S_d0 : S3.ReducesTo [0] S_

variable [Facts]

def fn {F : FTy → Type} [FloatOps F] (main_arg0 : FVec F S3x1x192x192x192 .f32) (main_arg1 : FVec F S3x1x192x192x192 .f32) (main_arg2 : FVec F S3 .f32) : IVec S_ 1 :=
  let main_v0 : FVec F S3x1x192x192x192 .f32 := Host.absf main_arg0
  let main_cst : FVec F S_ .f32 := constant S_ .f32 0x7F800000#32
  let main_v1 : FVec F S3x1x192x192x192 .f32 := broadcastInDim S3x1x192x192x192 ![] bcast_S_S3x1x192x192x192 main_cst
  let main_v2 : IVec S3x1x192x192x192 1 := cmpf .olt main_v0 main_v1
  let main_c : IVec S_ 1 := constantI S_ 1 1#1
  let main_v3 : IVec S_ 1 := (fun x v => Host.reduce IntOp.andi x v reducesTo_S3x1x192x192x192_S_d0_1_2_3_4 h_S_) main_v2 main_c
  let main_v4 : FVec F S3x1x192x192x192 .f32 := Host.absf main_arg1
  let main_cst_0 : FVec F S_ .f32 := constant S_ .f32 0x7F800000#32
  let main_v5 : FVec F S3x1x192x192x192 .f32 := broadcastInDim S3x1x192x192x192 ![] bcast_S_S3x1x192x192x192 main_cst_0
  let main_v6 : IVec S3x1x192x192x192 1 := cmpf .olt main_v4 main_v5
  let main_c_1 : IVec S_ 1 := constantI S_ 1 1#1
  let main_v7 : IVec S_ 1 := (fun x v => Host.reduce IntOp.andi x v reducesTo_S3x1x192x192x192_S_d0_1_2_3_4 h_S_) main_v6 main_c_1
  let main_v8 : IVec S_ 1 := andi main_v3 main_v7
  let main_v9 : FVec F S3 .f32 := Host.absf main_arg2
  let main_cst_2 : FVec F S_ .f32 := constant S_ .f32 0x7F800000#32
  let main_v10 : FVec F S3 .f32 := broadcastInDim S3 ![] bcast_S_S3 main_cst_2
  let main_v11 : IVec S3 1 := cmpf .olt main_v9 main_v10
  let main_c_3 : IVec S_ 1 := constantI S_ 1 1#1
  let main_v12 : IVec S_ 1 := (fun x v => Host.reduce IntOp.andi x v reducesTo_S3_S_d0 h_S_) main_v11 main_c_3
  let main_v13 : IVec S_ 1 := andi main_v8 main_v12
  main_v13
-- ==== Kernel.lean ====
abbrev S3x1x192x192x192 : Shape := ⟨5, ![3, 1, 192, 192, 192]⟩
abbrev S3 : Shape := ⟨1, ![3]⟩
abbrev S3x36864x192 : Shape := ⟨3, ![3, 36864, 192]⟩
abbrev S3x1 : Shape := ⟨2, ![3, 1]⟩
abbrev S3x2304x192 : Shape := ⟨3, ![3, 2304, 192]⟩
abbrev S3x2304 : Shape := ⟨2, ![3, 2304]⟩
abbrev S_ : Shape := ⟨0, ![]⟩

abbrev nBuf : Space → Nat
  | .hbm => 32
  | .vmem => 7
  | .smem => 0
  | _ => 0

abbrev bufTy : (tb : Table) → Fin (tcTables nBuf tb) → BufTy
  | .hbm, ⟨0, _⟩ => ⟨S3x1x192x192x192, .f32⟩
  | .hbm, ⟨1, _⟩ => ⟨S3x1x192x192x192, .f32⟩
  | .hbm, ⟨2, _⟩ => ⟨S3, .f32⟩
  | .hbm, ⟨3, _⟩ => ⟨S3x36864x192, .f32⟩
  | .hbm, ⟨4, _⟩ => ⟨S3x36864x192, .f32⟩
  | .hbm, ⟨5, _⟩ => ⟨S3x1, .f32⟩
  | .hbm, ⟨6, _⟩ => ⟨S3x1, .f32⟩
  | .hbm, ⟨7, _⟩ => ⟨S3x1, .f32⟩
  | .hbm, ⟨8, _⟩ => ⟨S3, .f32⟩
  | .hbm, ⟨9, _⟩ => ⟨S3, .f32⟩
  | .hbm, ⟨10, _⟩ => ⟨S3, .f32⟩
  | .hbm, ⟨11, _⟩ => ⟨S3, .f32⟩
  | .hbm, ⟨12, _⟩ => ⟨S3, .f32⟩
  | .hbm, ⟨13, _⟩ => ⟨S3, .f32⟩
  | .hbm, ⟨14, _⟩ => ⟨S_, .f32⟩
  | .hbm, ⟨15, _⟩ => ⟨S3, .f32⟩
  | .hbm, ⟨16, _⟩ => ⟨S3, .f32⟩
  | .hbm, ⟨17, _⟩ => ⟨S_, .f32⟩
  | .hbm, ⟨18, _⟩ => ⟨S3, .f32⟩
  | .hbm, ⟨19, _⟩ => ⟨S3, .f32⟩
  | .hbm, ⟨20, _⟩ => ⟨S3, .f32⟩
  | .hbm, ⟨21, _⟩ => ⟨S_, .f32⟩
  | .hbm, ⟨22, _⟩ => ⟨S3, .f32⟩
  | .hbm, ⟨23, _⟩ => ⟨S3, .f32⟩
  | .hbm, ⟨24, _⟩ => ⟨S3, .f32⟩
  | .hbm, ⟨25, _⟩ => ⟨S_, .f32⟩
  | .hbm, ⟨26, _⟩ => ⟨S3, .f32⟩
  | .hbm, ⟨27, _⟩ => ⟨S3, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .local _ .vmem, ⟨0, _⟩ => ⟨S3x2304x192, .f32⟩
  | .local _ .vmem, ⟨1, _⟩ => ⟨S3x2304x192, .f32⟩
  | .local _ .vmem, ⟨2, _⟩ => ⟨S3x2304x192, .f32⟩
  | .local _ .vmem, ⟨3, _⟩ => ⟨S3x2304x192, .f32⟩
  | .local _ .vmem, ⟨4, _⟩ => ⟨S3x1, .f32⟩
  | .local _ .vmem, ⟨5, _⟩ => ⟨S3x1, .f32⟩
  | .local _ .vmem, ⟨6, _⟩ => ⟨S3x1, .f32⟩
  | _, _ => ⟨S3x1x192x192x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S3x2304x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x2304x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  shapeCasts_S3x1x192x192x192_S3x36864x192 : S3x1x192x192x192.ShapeCasts S3x36864x192
  inb_S3x1_S3x1_0_0 : ∀ a, (![0, 0] : Fin 2 → Nat) a + S3x1.size a ≤ S3x1.size a
  h_S3x1 : 0 < S3x1.numel
  inb_S3x2304x192_S3x2304x192_0_0_0 : ∀ a, (![0, 0, 0] : Fin 3 → Nat) a + S3x2304x192.size a ≤ S3x2304x192.size a
  h_S3x2304x192 : 0 < S3x2304x192.numel
  shapeCasts_S3x2304x192_S3x2304x192 : S3x2304x192.ShapeCasts S3x2304x192
  shapeCasts_S3x1_S3x1 : S3x1.ShapeCasts S3x1
  reduces_S3x2304x192_S3x2304 : S3x2304x192.Reduces [2] S3x2304
  reduces_S3x2304_S3 : S3x2304.Reduces [1] S3
  shapeCasts_S3_S3x1 : S3.ShapeCasts S3x1
  shapeCasts_S3x1_S3 : S3x1.ShapeCasts S3
  bcast_S_S3 : S_.BroadcastsInDim S3 (![] : Fin 0 → Fin S3.rank)
  reducesTo_S3_S_d0 : S3.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x2304x192.size a ≤ S3x36864x192.size a
  hwx0_0 : ∀ i : grid0.Coords, EltTy.bits .f32 = 32 ∨ (Rect.block (s := S3x36864x192) S3x2304x192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3x2304x192.size a ≤ S3x36864x192.size a
  hwx0_1 : ∀ i : grid0.Coords, EltTy.bits .f32 = 32 ∨ (Rect.block (s := S3x36864x192) S3x2304x192.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x1.size a ≤ S3x1.size a
  hwx0_2 : ∀ i : grid0.Coords, EltTy.bits .f32 = 32 ∨ (Rect.block (s := S3x1) S3x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x1.size a ≤ S3x1.size a
  hwx0_3 : ∀ i : grid0.Coords, EltTy.bits .f32 = 32 ∨ (Rect.block (s := S3x1) S3x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3x1.size a ≤ S3x1.size a
  hwx0_4 : ∀ i : grid0.Coords, EltTy.bits .f32 = 32 ∨ (Rect.block (s := S3x1) S3x1.size (cc0_transform_4 i) (hinb0_4 i)).WholeWords (EltTy.packing .f32)

variable [Facts₀]

abbrev win0_0 : Pipeline.Window sig grid0 :=
  Pipeline.Window.ofSpec (Memref.whole main_v0) S3x2304x192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S3x2304x192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S3x1.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S3x1.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2_2) S3x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S3x1x192x192x192 : Shape := ⟨5, ![3, 1, 192, 192, 192]⟩
abbrev S3 : Shape := ⟨1, ![3]⟩
abbrev S_ : Shape := ⟨0, ![]⟩
abbrev S3x7077888 : Shape := ⟨2, ![3, 7077888]⟩

abbrev nBuf : Space → Nat
  | .hbm => 41
  | .vmem => 0
  | .smem => 0
  | _ => 0

abbrev bufTy : (tb : Table) → Fin (tcTables nBuf tb) → BufTy
  | .hbm, ⟨0, _⟩ => ⟨S3x1x192x192x192, .f32⟩
  | .hbm, ⟨1, _⟩ => ⟨S3x1x192x192x192, .f32⟩
  | .hbm, ⟨2, _⟩ => ⟨S3, .f32⟩
  | .hbm, ⟨3, _⟩ => ⟨S3x1x192x192x192, .f32⟩
  | .hbm, ⟨4, _⟩ => ⟨S3x1x192x192x192, .f32⟩
  | .hbm, ⟨5, _⟩ => ⟨S_, .f32⟩
  | .hbm, ⟨6, _⟩ => ⟨S3x1x192x192x192, .f32⟩
  | .hbm, ⟨7, _⟩ => ⟨S3x1x192x192x192, .f32⟩
  | .hbm, ⟨8, _⟩ => ⟨S_, .f32⟩
  | .hbm, ⟨9, _⟩ => ⟨S3x1x192x192x192, .f32⟩
  | .hbm, ⟨10, _⟩ => ⟨S3x1x192x192x192, .f32⟩
  | .hbm, ⟨11, _⟩ => ⟨S3x7077888, .f32⟩
  | .hbm, ⟨12, _⟩ => ⟨S3x7077888, .f32⟩
  | .hbm, ⟨13, _⟩ => ⟨S3x7077888, .f32⟩
  | .hbm, ⟨14, _⟩ => ⟨S_, .f32⟩
  | .hbm, ⟨15, _⟩ => ⟨S3, .f32⟩
  | .hbm, ⟨16, _⟩ => ⟨S3, .f32⟩
  | .hbm, ⟨17, _⟩ => ⟨S_, .f32⟩
  | .hbm, ⟨18, _⟩ => ⟨S3, .f32⟩
  | .hbm, ⟨19, _⟩ => ⟨S3, .f32⟩
  | .hbm, ⟨20, _⟩ => ⟨S_, .f32⟩
  | .hbm, ⟨21, _⟩ => ⟨S3, .f32⟩
  | .hbm, ⟨22, _⟩ => ⟨S3, .f32⟩
  | .hbm, ⟨23, _⟩ => ⟨S_, .f32⟩
  | .hbm, ⟨24, _⟩ => ⟨S3, .f32⟩
  | .hbm, ⟨25, _⟩ => ⟨S3, .f32⟩
  | .hbm, ⟨26, _⟩ => ⟨S_, .f32⟩
  | .hbm, ⟨27, _⟩ => ⟨S3, .f32⟩
  | .hbm, ⟨28, _⟩ => ⟨S3, .f32⟩
  | .hbm, ⟨29, _⟩ => ⟨S3, .f32⟩
  | .hbm, ⟨30, _⟩ => ⟨S_, .f32⟩
  | .hbm, ⟨31, _⟩ => ⟨S3, .f32⟩
  | .hbm, ⟨32, _⟩ => ⟨S3, .f32⟩
  | .hbm, ⟨33, _⟩ => ⟨S3, .f32⟩
  | .hbm, ⟨34, _⟩ => ⟨S_, .f32⟩
  | .hbm, ⟨35, _⟩ => ⟨S3, .f32⟩
  | .hbm, ⟨36, _⟩ => ⟨S3, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | _, _ => ⟨S3x1x192x192x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_cst_4 : Ref sig .tc := ⟨.hbm, 23, rfl⟩
abbrev main_v15 : Ref sig .tc := ⟨.hbm, 24, rfl⟩
abbrev main_v16 : Ref sig .tc := ⟨.hbm, 25, rfl⟩
abbrev main_cst_5 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_6 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_v24 : Ref sig .tc := ⟨.hbm, 36, rfl⟩
abbrev main_cst_8 : Ref sig .tc := ⟨.hbm, 37, rfl⟩
abbrev main_v25 : Ref sig .tc := ⟨.hbm, 38, rfl⟩
abbrev main_cst_9 : Ref sig .tc := ⟨.hbm, 39, rfl⟩
abbrev main_v26 : Ref sig .tc := ⟨.hbm, 40, rfl⟩

abbrev nD : Nat := 1
abbrev τ : Topo := Topo.v7x

variable {F : FTy → Type} [FloatOps F]

class Facts₀ : Prop where
  bcast_S_S3x1x192x192x192 : S_.BroadcastsInDim S3x1x192x192x192 (![] : Fin 0 → Fin S3x1x192x192x192.rank)
  shapeCasts_S3x1x192x192x192_S3x7077888 : S3x1x192x192x192.ShapeCasts S3x7077888
  reducesTo_S3x7077888_S3_d1 : S3x7077888.ReducesTo [1] S3
  h_S_ : 0 < S_.numel
  bcast_S_S3 : S_.BroadcastsInDim S3 (![] : Fin 0 → Fin S3.rank)
  reducesTo_S3_S_d0 : S3.ReducesTo [0] S_

variable [Facts₀]

class Facts : Prop extends Facts₀ where

variable [Facts]
-- ==== Proof.LibFinSumPair.lean ====
/-
  Regrouping a finite sum by pairs.

  In any commutative additive monoid, summing `f` over the positions `a · n + b` for `a < m` and `b < n` is summing it
  over every position below `m · n`, each once: the pair `(a, b)` and the position `a · n + b` correspond one to one
  (division with remainder by `n`). This is the step between a sum taken block by block, row by row or lane by lane and
  the same sum taken over a flattened (row-major) axis; apply it once per pair of axes merged.
-/
import Mathlib.Algebra.BigOperators.Fin
import Mathlib.Logic.Equiv.Fin.Basic

namespace Cert.Lib

/-- Two nested sums over `Fin m` and `Fin n` are one sum over `Fin N` with `N = m · n`, the pair `(a, b)` being position
    `a · n + b`. The size `N` is taken with an equation so that a literal product need not be spelled `m * n`. -/
theorem sum_pair {M : Type*} [AddCommMonoid M] (m n N : ℕ) (hN : m * n = N) (f : ℕ → M) :
    ∑ a : Fin m, ∑ b : Fin n, f (a.val * n + b.val) = ∑ k : Fin N, f k.val := by
  subst hN
  rw [← Fintype.sum_prod_type']
  refine Fintype.sum_equiv finProdFinEquiv _ _ fun x => ?_
  rw [finProdFinEquiv_apply_val, Nat.add_comm, Nat.mul_comm]

end Cert.Lib
-- ==== Proof.DiceSums.lean ====
/-
  The arithmetic both programs share, stated once and without either program.

  A volume of one batch entry has 7077888 = 36864 · 192 = (16 · 2304) · 192 cells. The kernel walks them as 16
  blocks of 2304 rows of 192 lanes and adds block sums into an accumulator; the reference flattens the volume and
  sums it in one go. Over the extended reals addition is commutative and associative, so a sum may be taken in any
  grouping: `sum_blocks_rows_lanes` is that statement for exactly this grouping, the cell `(t, r, l)` being the
  flat position `(t · 2304 + r) · 192 + l`.

  `cell b n` is the index, in the five-axis array, of flat position `n` of batch entry `b` (row-major: the
  last axis fastest). Both programs' reshapes read the array through it.
-/
import Idealize.ShloMosaic.Lib.ValueIdx
import Idealize.ShloMosaic.PureOps.Ideal.Laws
import proofs.«130817_j68908455297535_1_alg».proof.Proof.LibFinSumPair

noncomputable section

open Idealize.ShloMosaic

namespace Cert.Dice

open Cert.Lib

/-- Sixteen blocks of 2304 rows of 192 lanes are the 7077888 cells of a volume, each once. -/
theorem sum_blocks_rows_lanes {M : Type*} [AddCommMonoid M] (f : ℕ → M) :
    ∑ t : Fin 16, ∑ r : Fin 2304, ∑ l : Fin 192, f ((t.val * 2304 + r.val) * 192 + l.val)
      = ∑ k : Fin 7077888, f k.val := by
  rw [← sum_pair 36864 192 7077888 (by norm_num) f,
    ← sum_pair 16 2304 36864 (by norm_num) fun R => ∑ l : Fin 192, f (R * 192 + l.val)]

/-- Flat position `n` of batch entry `b`, as an index of the [3, 1, 192, 192, 192] array. -/
def cell (b : Fin 3) (n : ℕ) : (⟨5, ![3, 1, 192, 192, 192]⟩ : Shape).Idx :=
  ValueIdx.ix5 b (0 : Fin 1) ⟨n / 36864 % 192, Nat.mod_lt _ (by norm_num)⟩ ⟨n / 192 % 192, Nat.mod_lt _ (by norm_num)⟩
    ⟨n % 192, Nat.mod_lt _ (by norm_num)⟩

/-- The five-axis volume array, the per-batch vector and the scalar. -/
abbrev Vol : Shape := ⟨5, ![3, 1, 192, 192, 192]⟩
abbrev Per : Shape := ⟨1, ![3]⟩
abbrev Sc : Shape := ⟨0, ![]⟩

/-- The word of `1.0` is the extended real `1`. -/
theorem one_word : Ideal.ofBits .f32 0x3F800000#32 = 1 := by
  simp [Ideal.ofBits, Ideal.ieee, -EReal.coe_mul]; norm_num

/-- Per batch entry, over the whole volume: `Σ σ(p)·t`, `Σ σ(p)`, `Σ t` (σ the logistic function). -/
def interSum (p t : FVec Ideal Vol .f32) : FVec Ideal Per .f32 :=
  fun j => ∑ k : Fin 7077888, Ideal.logistic (p (cell (j 0) k.val)) * t (cell (j 0) k.val)
def predSum (p : FVec Ideal Vol .f32) : FVec Ideal Per .f32 :=
  fun j => ∑ k : Fin 7077888, Ideal.logistic (p (cell (j 0) k.val))
def targSum (t : FVec Ideal Vol .f32) : FVec Ideal Per .f32 :=
  fun j => ∑ k : Fin 7077888, t (cell (j 0) k.val)

/-- What both programs do with the three per-batch sums `I`, `P`, `T` and the weights `w`: the Dice ratio
    `(2·(I·w) + 1) / ((P·w + T·w) + 1)` per batch entry, then the mean over the three entries of one minus it. The
    operations and their order are the programs' own; nothing is simplified. -/
def tail (hb : Sc.BroadcastsInDim Per (![] : Fin 0 → Fin Per.rank)) (hr : Per.ReducesTo [0] Sc) (h0 : 0 < Sc.numel)
    (I P T w : FVec Ideal Per .f32) : FVec Ideal Sc .f32 :=
  Host.divf (F := Ideal)
    (Host.reduceAdd (F := Ideal)
      (subf (broadcastInDim Per ![] hb (constant (F := Ideal) Sc .f32 0x3F800000#32))
        (Host.divf (F := Ideal)
          (addf (mulf (broadcastInDim Per ![] hb (constant (F := Ideal) Sc .f32 0x40000000#32)) (mulf I w))
            (broadcastInDim Per ![] hb (constant (F := Ideal) Sc .f32 0x3F800000#32)))
          (addf (addf (mulf P w) (mulf T w)) (broadcastInDim Per ![] hb (constant (F := Ideal) Sc .f32 0x3F800000#32)))))
      (constant (F := Ideal) Sc .f32 0x00000000#32) hr h0)
    (constant (F := Ideal) Sc .f32 0x40400000#32)

end Cert.Dice

end
-- ==== Proof.Pieces.lean ====
/-
  What one grid step leaves in each of the three accumulators, as a pure function of the two input blocks
  (a block of logits `x0`, a block of targets `x1`) and of what the accumulator held before the step.

  A step that is not the first adds to the running value: the intersection accumulator gets
  `old + Σ σ(x0)·x1`, the prediction accumulator `old + Σ σ(x0)`, the target accumulator `old + Σ x1`
  (the sums over the block's rows and lanes). The first step does the same over the zero block it has
  just stored. Each statement below says exactly that: the accumulator's contents after the step are the
  step's update term applied to the blocks and to the previous contents (or to the zero block).
-/
import proofs.«130817_j68908455297535_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

/-- The accumulators and the input blocks are read and written whole: every offset is zero. -/
theorem hz2 : (![0, 0] : Fin 2 → Nat) = fun _ => 0 := funext fun a => by fin_cases a <;> rfl
theorem hz3 : (![0, 0, 0] : Fin 3 → Nat) = fun _ => 0 := funext fun a => by fin_cases a <;> rfl

/-- A later step: the intersection accumulator becomes `old + Σ σ(x0)·x1`. -/
theorem carried_2 (c : Dev nD) (i : grid0.Coords) (a1 : Memref sig .tc .vmem S3x2304x192 .f32) (h1 : a1.IsWhole) (a2 : Memref sig .tc .vmem S3x2304x192 .f32) (h2 : a2.IsWhole) (a3 : Memref sig .tc .vmem S3x1 .f32) (h3 : a3.IsWhole) (a4 : Memref sig .tc .vmem S3x1 .f32) (h4 : a4.IsWhole) (a5 : Memref sig .tc .vmem S3x1 .f32) (h5 : a5.IsWhole) (hc : ¬cond0_0 i)
    (x0 x1 : Vec F S3x2304x192 .f32) (xo2 xo3 xo4 : Vec F S3x1 .f32) :
    out0_B_2 c i a1 h1 a2 h2 a3 h3 a4 h4 a5 h5 hc x0 x1 xo2 xo3 xo4 = k0_pay6 x0 x1 xo2 := by
  unfold out0_B_2
  rw [View.read_writes_eq_canon _ _ _ (cover0_B_2 c i a1 h1 a2 h2 a3 h3 a4 h4 a5 h5 hc x0 x1 xo2 xo3 xo4)]
  unfold kernelRun0_B
  dsimp only
  sl_unfold_words
  rw [View.canon_unit_zero hz2]
  simp only [View.readAt_eq_ld, h1.read_unread, h2.read_unread, h3.read_unread, h4.read_unread, h5.read_unread,
    View.ld_unit_zero (S := S3x2304x192) hz3, View.ld_unit_zero (S := S3x1) hz2]

/-- A later step: the prediction accumulator becomes `old + Σ σ(x0)`. -/
theorem carried_3 (c : Dev nD) (i : grid0.Coords) (a1 : Memref sig .tc .vmem S3x2304x192 .f32) (h1 : a1.IsWhole) (a2 : Memref sig .tc .vmem S3x2304x192 .f32) (h2 : a2.IsWhole) (a3 : Memref sig .tc .vmem S3x1 .f32) (h3 : a3.IsWhole) (a4 : Memref sig .tc .vmem S3x1 .f32) (h4 : a4.IsWhole) (a5 : Memref sig .tc .vmem S3x1 .f32) (h5 : a5.IsWhole) (hc : ¬cond0_0 i)
    (x0 x1 : Vec F S3x2304x192 .f32) (xo2 xo3 xo4 : Vec F S3x1 .f32) :
    out0_B_3 c i a1 h1 a2 h2 a3 h3 a4 h4 a5 h5 hc x0 x1 xo2 xo3 xo4 = k0_pay7 x0 xo3 := by
  unfold out0_B_3
  rw [View.read_writes_eq_canon _ _ _ (cover0_B_3 c i a1 h1 a2 h2 a3 h3 a4 h4 a5 h5 hc x0 x1 xo2 xo3 xo4)]
  unfold kernelRun0_B
  dsimp only
  sl_unfold_words
  rw [View.canon_unit_zero hz2]
  simp only [View.readAt_eq_ld, h1.read_unread, h2.read_unread, h3.read_unread, h4.read_unread, h5.read_unread,
    View.ld_unit_zero (S := S3x2304x192) hz3, View.ld_unit_zero (S := S3x1) hz2]

/-- A later step: the target accumulator becomes `old + Σ x1`. -/
theorem carried_4 (c : Dev nD) (i : grid0.Coords) (a1 : Memref sig .tc .vmem S3x2304x192 .f32) (h1 : a1.IsWhole) (a2 : Memref sig .tc .vmem S3x2304x192 .f32) (h2 : a2.IsWhole) (a3 : Memref sig .tc .vmem S3x1 .f32) (h3 : a3.IsWhole) (a4 : Memref sig .tc .vmem S3x1 .f32) (h4 : a4.IsWhole) (a5 : Memref sig .tc .vmem S3x1 .f32) (h5 : a5.IsWhole) (hc : ¬cond0_0 i)
    (x0 x1 : Vec F S3x2304x192 .f32) (xo2 xo3 xo4 : Vec F S3x1 .f32) :
    out0_B_4 c i a1 h1 a2 h2 a3 h3 a4 h4 a5 h5 hc x0 x1 xo2 xo3 xo4 = k0_pay8 x1 xo4 := by
  unfold out0_B_4
  rw [View.read_writes_eq_canon _ _ _ (cover0_B_4 c i a1 h1 a2 h2 a3 h3 a4 h4 a5 h5 hc x0 x1 xo2 xo3 xo4)]
  unfold kernelRun0_B
  dsimp only
  sl_unfold_words
  rw [View.canon_unit_zero hz2]
  simp only [View.readAt_eq_ld, h1.read_unread, h2.read_unread, h3.read_unread, h4.read_unread, h5.read_unread,
    View.ld_unit_zero (S := S3x2304x192) hz3, View.ld_unit_zero (S := S3x1) hz2]

/-- The first step: the intersection accumulator becomes `0 + Σ σ(x0)·x1`, over the zero block just stored. -/
theorem first_2 (c : Dev nD) (i : grid0.Coords) (a1 : Memref sig .tc .vmem S3x2304x192 .f32) (h1 : a1.IsWhole) (a2 : Memref sig .tc .vmem S3x2304x192 .f32) (h2 : a2.IsWhole) (a3 : Memref sig .tc .vmem S3x1 .f32) (h3 : a3.IsWhole) (a4 : Memref sig .tc .vmem S3x1 .f32) (h4 : a4.IsWhole) (a5 : Memref sig .tc .vmem S3x1 .f32) (h5 : a5.IsWhole) (hc : cond0_0 i)
    (x0 x1 : Vec F S3x2304x192 .f32) :
    out0_A_2 c i a1 h1 a2 h2 a3 h3 a4 h4 a5 h5 hc x0 x1 = k0_pay6 x0 x1 k0_pay1 := by
  unfold out0_A_2
  rw [View.read_writes_eq_canon _ _ _ (cover0_A_2 c i a1 h1 a2 h2 a3 h3 a4 h4 a5 h5 hc x0 x1)]
  unfold kernelRun0_A
  dsimp only
  sl_unfold_words
  rw [View.canon_cons_unit_zero (S := S3x1) hz2, View.readCov_unit_zero (S := S3x1) _ hz2]
  simp only [View.readAt_eq_ld, h1.read_unread, h2.read_unread, h3.read_unread, h4.read_unread, h5.read_unread,
    View.ld_unit_zero (S := S3x2304x192) hz3, View.ld_unit_zero (S := S3x1) hz2]

/-- The first step: the prediction accumulator becomes `0 + Σ σ(x0)`. -/
theorem first_3 (c : Dev nD) (i : grid0.Coords) (a1 : Memref sig .tc .vmem S3x2304x192 .f32) (h1 : a1.IsWhole) (a2 : Memref sig .tc .vmem S3x2304x192 .f32) (h2 : a2.IsWhole) (a3 : Memref sig .tc .vmem S3x1 .f32) (h3 : a3.IsWhole) (a4 : Memref sig .tc .vmem S3x1 .f32) (h4 : a4.IsWhole) (a5 : Memref sig .tc .vmem S3x1 .f32) (h5 : a5.IsWhole) (hc : cond0_0 i)
    (x0 x1 : Vec F S3x2304x192 .f32) :
    out0_A_3 c i a1 h1 a2 h2 a3 h3 a4 h4 a5 h5 hc x0 x1 = k0_pay7 x0 k0_pay2 := by
  unfold out0_A_3
  rw [View.read_writes_eq_canon _ _ _ (cover0_A_3 c i a1 h1 a2 h2 a3 h3 a4 h4 a5 h5 hc x0 x1)]
  unfold kernelRun0_A
  dsimp only
  sl_unfold_words
  rw [View.canon_cons_unit_zero (S := S3x1) hz2, View.readCov_unit_zero (S := S3x1) _ hz2]
  simp only [View.readAt_eq_ld, h1.read_unread, h2.read_unread, h3.read_unread, h4.read_unread, h5.read_unread,
    View.ld_unit_zero (S := S3x2304x192) hz3, View.ld_unit_zero (S := S3x1) hz2]

/-- The first step: the target accumulator becomes `0 + Σ x1`. -/
theorem first_4 (c : Dev nD) (i : grid0.Coords) (a1 : Memref sig .tc .vmem S3x2304x192 .f32) (h1 : a1.IsWhole) (a2 : Memref sig .tc .vmem S3x2304x192 .f32) (h2 : a2.IsWhole) (a3 : Memref sig .tc .vmem S3x1 .f32) (h3 : a3.IsWhole) (a4 : Memref sig .tc .vmem S3x1 .f32) (h4 : a4.IsWhole) (a5 : Memref sig .tc .vmem S3x1 .f32) (h5 : a5.IsWhole) (hc : cond0_0 i)
    (x0 x1 : Vec F S3x2304x192 .f32) :
    out0_A_4 c i a1 h1 a2 h2 a3 h3 a4 h4 a5 h5 hc x0 x1 = k0_pay8 x1 k0_pay3 := by
  unfold out0_A_4
  rw [View.read_writes_eq_canon _ _ _ (cover0_A_4 c i a1 h1 a2 h2 a3 h3 a4 h4 a5 h5 hc x0 x1)]
  unfold kernelRun0_A
  dsimp only
  sl_unfold_words
  rw [View.canon_cons_unit_zero (S := S3x1) hz2, View.readCov_unit_zero (S := S3x1) _ hz2]
  simp only [View.readAt_eq_ld, h1.read_unread, h2.read_unread, h3.read_unread, h4.read_unread, h5.read_unread,
    View.ld_unit_zero (S := S3x2304x192) hz3, View.ld_unit_zero (S := S3x1) hz2]

end Cert.KernelIdeal.Pieces

end
-- ==== Proof.StepValue.lean ====
/-
  One grid step's update, read at an index over the extended reals.

  For a block of logits `x0` and a block of targets `x1` (three batch entries, 2304 rows, 192 lanes) and an
  accumulator `old` with one cell per batch entry, the step leaves at batch entry `b`

    intersection:  old b + Σ_r Σ_l σ(x0 b r l) · x1 b r l
    prediction:    old b + Σ_r Σ_l σ(x0 b r l)
    target:        old b + Σ_r Σ_l x1 b r l

  where σ is the logistic function. The lane sum and then the row sum are each a finite sum over one axis; the
  re-shapings between them keep the row-major position, so they only rename the index.
-/
import proofs.«130817_j68908455297535_1_alg».proof.Proof.Gen.KernelIdeal.Skeleton
import Idealize.ShloMosaic.Lib.ValueIdx
import Idealize.ShloMosaic.Lib.Pipeline.Value
import Idealize.ShloMosaic.PureOps.Ideal.Laws

noncomputable section

open Idealize.ShloMosaic Idealize.ShloMosaic.ValueIdx

namespace Cert.KernelIdeal.Step

open Cert.KernelIdeal Cert.KernelIdeal.Gen

/-- A vector of three cells viewed as a 3-by-1 column: cell `b` sits at row `b`, column 0. -/
theorem colCast_apply {α : Type} (v : S3.Idx → α) (h : S3.ShapeCasts S3x1) (b : Fin 3) :
    shapeCast S3x1 v h (ix2 b (0 : Fin 1)) = v (ix1 b) :=
  shapeCast_apply v h (ix2 b (0 : Fin 1)) (ix1 b) (by
    rw [Shape.rowMajor_val_one, Shape.rowMajor_val_two]; show b.val = b.val * 1 + 0; omega)

/-- And back: a 3-by-1 column viewed as three cells. -/
theorem rowCast_apply {α : Type} (v : S3x1.Idx → α) (h : S3x1.ShapeCasts S3) (b : Fin 3) :
    shapeCast S3 v h (ix1 b) = v (ix2 b (0 : Fin 1)) :=
  shapeCast_apply v h (ix1 b) (ix2 b (0 : Fin 1)) (by
    rw [Shape.rowMajor_val_one, Shape.rowMajor_val_two]; show b.val * 1 + 0 = b.val; omega)

/-- Summing a block over its lanes and then over its rows: at batch entry `b` the double sum of the block's
    cells `(b, r, l)`. -/
theorem rowsLanes_apply (v : FVec Ideal S3x2304x192 .f32) (h2 : S3x2304x192.Reduces [2] S3x2304) (h1 : S3x2304.Reduces [1] S3)
    (hφ : FKind.Formats .f32) (hacc : (0x00000000#32 : BitVec 32) = FKind.add.neutral .f32 hφ) (b : Fin 3) :
    multiReduction .add [1] S3 (multiReduction .add [2] S3x2304 v 0x00000000#32 h2 hφ hacc) 0x00000000#32 h1 hφ hacc (ix1 b)
      = ∑ r : Fin 2304, ∑ l : Fin 192, v (ix3 b r l) := by
  refine (Ideal.multiReduction_add_single _ _ h1 hφ hacc (ix1 b)).trans ?_
  show ∑ r : Fin 2304, _ = _
  refine Finset.sum_congr rfl fun r _ => ?_
  refine (Ideal.multiReduction_add_single v _ h2 hφ hacc _).trans ?_
  show ∑ l : Fin 192, _ = _
  refine Finset.sum_congr rfl fun l _ => congrArg v (funext fun a => Fin.ext ?_)
  match a with
  | ⟨0, _⟩ => rfl
  | ⟨1, _⟩ => rfl
  | ⟨2, _⟩ => rfl

/-- The intersection accumulator after a step: `old + Σ σ(x0)·x1`. -/
theorem inter_step (x0 x1 : FVec Ideal S3x2304x192 .f32) (xo : FVec Ideal S3x1 .f32) (b : Fin 3) :
    k0_pay6 (F := Ideal) x0 x1 xo (ix2 b (0 : Fin 1))
      = xo (ix2 b (0 : Fin 1)) + ∑ r : Fin 2304, ∑ l : Fin 192, Ideal.logistic (x0 (ix3 b r l)) * x1 (ix3 b r l) := by
  unfold k0_pay6 k0_pay4 k0_pay5
  dsimp only
  refine (addf_apply _ _ _).trans (congrArg₂ (· + ·) (congrFun (shapeCast_self xo _) _) ?_)
  refine (colCast_apply _ _ b).trans ((rowsLanes_apply _ _ _ _ _ b).trans ?_)
  simp only [shapeCast_self]
  rfl

/-- The prediction accumulator after a step: `old + Σ σ(x0)`. -/
theorem pred_step (x0 : FVec Ideal S3x2304x192 .f32) (xo : FVec Ideal S3x1 .f32) (b : Fin 3) :
    k0_pay7 (F := Ideal) x0 xo (ix2 b (0 : Fin 1))
      = xo (ix2 b (0 : Fin 1)) + ∑ r : Fin 2304, ∑ l : Fin 192, Ideal.logistic (x0 (ix3 b r l)) := by
  unfold k0_pay7 k0_pay4
  dsimp only
  refine (addf_apply _ _ _).trans (congrArg₂ (· + ·) (congrFun (shapeCast_self xo _) _) ?_)
  refine (colCast_apply _ _ b).trans ((rowsLanes_apply _ _ _ _ _ b).trans ?_)
  simp only [shapeCast_self]
  rfl

/-- The target accumulator after a step: `old + Σ x1`. -/
theorem targ_step (x1 : FVec Ideal S3x2304x192 .f32) (xo : FVec Ideal S3x1 .f32) (b : Fin 3) :
    k0_pay8 (F := Ideal) x1 xo (ix2 b (0 : Fin 1))
      = xo (ix2 b (0 : Fin 1)) + ∑ r : Fin 2304, ∑ l : Fin 192, x1 (ix3 b r l) := by
  unfold k0_pay8 k0_pay5
  dsimp only
  refine (addf_apply _ _ _).trans (congrArg₂ (· + ·) (congrFun (shapeCast_self xo _) _) ?_)
  refine (colCast_apply _ _ b).trans ((rowsLanes_apply _ _ _ _ _ b).trans ?_)
  simp only [shapeCast_self]

/-- The zero block the first step stores has the extended real `0` in every cell. -/
theorem zero_cell (j : S3x1.Idx) : k0_pay1 (F := Ideal) j = 0 ∧ k0_pay2 (F := Ideal) j = 0 ∧ k0_pay3 (F := Ideal) j = 0 :=
  ⟨Ideal.ofBits_zero_f32, Ideal.ofBits_zero_f32, Ideal.ofBits_zero_f32⟩

end Cert.KernelIdeal.Step

end
-- ==== Proof.Accumulate.lean ====
/-
  The three accumulators, step by step, and what the result arrays hold at the end.

  The grid has sixteen steps. At step `t` the kernel sees rows `t · 2304 … t · 2304 + 2303` of the logits and of
  the targets (each viewed as three batch entries of 36864 rows of 192 lanes, a row-major view of the five-axis
  inputs, so the block's cell `(b, r, l)` is flat position `(t · 2304 + r) · 192 + l` of batch entry `b`). Step 0
  stores zero and adds its block's sums; every later step adds its block's sums to what the step before left. So
  after step `n` each accumulator holds the sum of the block sums of steps `0 … n` (`running`, by induction on
  `n`), and after the last step that is the sum over all 7077888 cells (`sum_blocks_rows_lanes`). The accumulators
  are written back once, after step 15, and each is its whole result array.
-/
import proofs.«130817_j68908455297535_1_alg».proof.Proof.Gen.KernelIdeal.Frame
import proofs.«130817_j68908455297535_1_alg».proof.Proof.DiceSums
import proofs.«130817_j68908455297535_1_alg».proof.Proof.Pieces
import proofs.«130817_j68908455297535_1_alg».proof.Proof.StepValue
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen Cert.Dice

variable (m : (ℓ : Loc nD τ sig) → Buf (Elt Ideal) ℓ)

/-! ## The input blocks, read off the argument arrays -/

/-- The region finds the logits as rows: the five-axis argument re-shaped to [3, 36864, 192]. -/
theorem logits_rows (c : Dev nD) :
    (V m c main_v0 : S3x36864x192.Idx → EReal) = shapeCast S3x36864x192 (m ((c : Thread nD τ).loc main_arg0)) shapeCasts_S3x1x192x192x192_S3x36864x192 := by
  show StableHlo.after hostOps0 (fun b => m (c, b)) (Proc.devRef .tc main_v0) = _
  after_results
  rfl

/-- And the targets likewise. -/
theorem targets_rows (c : Dev nD) :
    (V m c main_v1 : S3x36864x192.Idx → EReal) = shapeCast S3x36864x192 (m ((c : Thread nD τ).loc main_arg1)) shapeCasts_S3x1x192x192x192_S3x36864x192 := by
  show StableHlo.after hostOps0 (fun b => m (c, b)) (Proc.devRef .tc main_v1) = _
  after_results
  rfl

/-- Both input windows step along the row axis only: block `t` starts at row `t · 2304`. -/
theorem step_rows : ∀ t : Fin cfg0.N,
    (win0_0.index t (0 : Fin 3) = 0 ∧ win0_0.index t (1 : Fin 3) = t.val ∧ win0_0.index t (2 : Fin 3) = 0)
    ∧ (win0_1.index t (0 : Fin 3) = 0 ∧ win0_1.index t (1 : Fin 3) = t.val ∧ win0_1.index t (2 : Fin 3) = 0) :=
  (by decide +kernel : ∀ t : Fin grid0.N,
    (win0_0.index t (0 : Fin 3) = 0 ∧ win0_0.index t (1 : Fin 3) = t.val ∧ win0_0.index t (2 : Fin 3) = 0)
    ∧ (win0_1.index t (0 : Fin 3) = 0 ∧ win0_1.index t (1 : Fin 3) = t.val ∧ win0_1.index t (2 : Fin 3) = 0))

/-- The block of logits and the block of targets that step `t` sees. -/
abbrev logitBlk (c : Dev nD) (t : Fin cfg0.N) : FVec Ideal S3x2304x192 .f32 := iblk m c 0 t
abbrev targBlk (c : Dev nD) (t : Fin cfg0.N) : FVec Ideal S3x2304x192 .f32 := iblk m c 1 t

/-- Cell `(b, r, l)` of step `t`'s block of logits is flat position `(t · 2304 + r) · 192 + l` of batch entry `b`. -/
theorem logitBlk_apply (c : Dev nD) (t : Fin cfg0.N) (b : Fin 3) (r : Fin 2304) (l : Fin 192) :
    logitBlk m c t (ix3 b r l) = m ((c : Thread nD τ).loc main_arg0) (cell b ((t.val * 2304 + r.val) * 192 + l.val)) := by
  have hN : t.val < 16 := lt_of_lt_of_eq t.isLt (show cfg0.N = 16 from N_0)
  have hb := b.isLt; have hr := r.isLt; have hl := l.isLt
  obtain ⟨⟨h0, h1, h2⟩, -⟩ := step_rows t
  unfold logitBlk iblk
  rw [View.read_apply]
  show V m c main_v0 (((cfg0.win 0).blk t).view.emb (ix3 b r l)) = _
  rw [logits_rows]
  refine shapeCast_apply _ _ _ (cell b ((t.val * 2304 + r.val) * 192 + l.val)) ?_
  rw [Shape.rowMajor_val_five, Shape.rowMajor_val_three]
  show (((b.val * 1 + 0) * 192 + ((t.val * 2304 + r.val) * 192 + l.val) / 36864 % 192) * 192
        + ((t.val * 2304 + r.val) * 192 + l.val) / 192 % 192) * 192 + ((t.val * 2304 + r.val) * 192 + l.val) % 192
      = ((win0_0.index t 0 * 3 + 1 * b.val) * 36864 + (win0_0.index t 1 * 2304 + 1 * r.val)) * 192
        + (win0_0.index t 2 * 192 + 1 * l.val)
  rw [h0, h1, h2]
  omega

/-- The same for the targets. -/
theorem targBlk_apply (c : Dev nD) (t : Fin cfg0.N) (b : Fin 3) (r : Fin 2304) (l : Fin 192) :
    targBlk m c t (ix3 b r l) = m ((c : Thread nD τ).loc main_arg1) (cell b ((t.val * 2304 + r.val) * 192 + l.val)) := by
  have hN : t.val < 16 := lt_of_lt_of_eq t.isLt (show cfg0.N = 16 from N_0)
  have hb := b.isLt; have hr := r.isLt; have hl := l.isLt
  obtain ⟨-, ⟨h0, h1, h2⟩⟩ := step_rows t
  unfold targBlk iblk
  rw [View.read_apply]
  show V m c main_v1 (((cfg0.win 1).blk t).view.emb (ix3 b r l)) = _
  rw [targets_rows]
  refine shapeCast_apply _ _ _ (cell b ((t.val * 2304 + r.val) * 192 + l.val)) ?_
  rw [Shape.rowMajor_val_five, Shape.rowMajor_val_three]
  show (((b.val * 1 + 0) * 192 + ((t.val * 2304 + r.val) * 192 + l.val) / 36864 % 192) * 192
        + ((t.val * 2304 + r.val) * 192 + l.val) / 192 % 192) * 192 + ((t.val * 2304 + r.val) * 192 + l.val) % 192
      = ((win0_1.index t 0 * 3 + 1 * b.val) * 36864 + (win0_1.index t 1 * 2304 + 1 * r.val)) * 192
        + (win0_1.index t 2 * 192 + 1 * l.val)
  rw [h0, h1, h2]
  omega

/-! ## The accumulators after each step -/

/-- What the step before `t` left. -/
abbrev before (c : Dev nD) (t : Fin cfg0.N) : Vec Ideal S3x1 .f32 × Vec Ideal S3x1 .f32 × Vec Ideal S3x1 .f32 :=
  outsAt0 m c (t.val - 1) (Nat.lt_of_le_of_lt (Nat.sub_le _ _) t.isLt)

/-- Step 0 leaves, in each accumulator, its update term over the zero block. -/
theorem first_inter (c : Dev nD) (t : Fin cfg0.N) (h0 : t.val % 16 = 0) :
    (outsAt0 m c t.val t.isLt).1 = k0_pay6 (F := Ideal) (logitBlk m c t) (targBlk m c t) (k0_pay1 (F := Ideal)) := by
  rw [outsAt0_A m c t h0]; dsimp only
  exact Pieces.first_2 (F := Ideal) c (grid0.coords t) (ms0_0 t) (hs0_0 t) (ms0_1 t) (hs0_1 t) (ms0_2 t) (hs0_2 t) (ms0_3 t) (hs0_3 t) (ms0_4 t) (hs0_4 t) ((hcond0_0 t).mpr h0) (logitBlk m c t) (targBlk m c t)
theorem first_pred (c : Dev nD) (t : Fin cfg0.N) (h0 : t.val % 16 = 0) :
    (outsAt0 m c t.val t.isLt).2.1 = k0_pay7 (F := Ideal) (logitBlk m c t) (k0_pay2 (F := Ideal)) := by
  rw [outsAt0_A m c t h0]; dsimp only
  exact Pieces.first_3 (F := Ideal) c (grid0.coords t) (ms0_0 t) (hs0_0 t) (ms0_1 t) (hs0_1 t) (ms0_2 t) (hs0_2 t) (ms0_3 t) (hs0_3 t) (ms0_4 t) (hs0_4 t) ((hcond0_0 t).mpr h0) (logitBlk m c t) (targBlk m c t)
theorem first_targ (c : Dev nD) (t : Fin cfg0.N) (h0 : t.val % 16 = 0) :
    (outsAt0 m c t.val t.isLt).2.2 = k0_pay8 (F := Ideal) (targBlk m c t) (k0_pay3 (F := Ideal)) := by
  rw [outsAt0_A m c t h0]; dsimp only
  exact Pieces.first_4 (F := Ideal) c (grid0.coords t) (ms0_0 t) (hs0_0 t) (ms0_1 t) (hs0_1 t) (ms0_2 t) (hs0_2 t) (ms0_3 t) (hs0_3 t) (ms0_4 t) (hs0_4 t) ((hcond0_0 t).mpr h0) (logitBlk m c t) (targBlk m c t)

/-- A later step leaves, in each accumulator, its update term over what the step before left there. -/
theorem later_inter (c : Dev nD) (t : Fin cfg0.N) (h0 : ¬t.val % 16 = 0) :
    (outsAt0 m c t.val t.isLt).1 = k0_pay6 (F := Ideal) (logitBlk m c t) (targBlk m c t) (before m c t).1 := by
  rw [outsAt0_B m c t h0]; dsimp only
  exact Pieces.carried_2 (F := Ideal) c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (logitBlk m c t) (targBlk m c t) (before m c t).1 (before m c t).2.1 (before m c t).2.2
theorem later_pred (c : Dev nD) (t : Fin cfg0.N) (h0 : ¬t.val % 16 = 0) :
    (outsAt0 m c t.val t.isLt).2.1 = k0_pay7 (F := Ideal) (logitBlk m c t) (before m c t).2.1 := by
  rw [outsAt0_B m c t h0]; dsimp only
  exact Pieces.carried_3 (F := Ideal) c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (logitBlk m c t) (targBlk m c t) (before m c t).1 (before m c t).2.1 (before m c t).2.2
theorem later_targ (c : Dev nD) (t : Fin cfg0.N) (h0 : ¬t.val % 16 = 0) :
    (outsAt0 m c t.val t.isLt).2.2 = k0_pay8 (F := Ideal) (targBlk m c t) (before m c t).2.2 := by
  rw [outsAt0_B m c t h0]; dsimp only
  exact Pieces.carried_4 (F := Ideal) c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (logitBlk m c t) (targBlk m c t) (before m c t).1 (before m c t).2.1 (before m c t).2.2

/-! ## The running sums -/

/-- The sums over step `t`'s block, for batch entry `b`, written over the argument arrays. -/
def interBlock (c : Dev nD) (b : Fin 3) (t : ℕ) : EReal :=
  ∑ r : Fin 2304, ∑ l : Fin 192,
    Ideal.logistic (m ((c : Thread nD τ).loc main_arg0) (cell b ((t * 2304 + r.val) * 192 + l.val)))
      * m ((c : Thread nD τ).loc main_arg1) (cell b ((t * 2304 + r.val) * 192 + l.val))
def predBlock (c : Dev nD) (b : Fin 3) (t : ℕ) : EReal :=
  ∑ r : Fin 2304, ∑ l : Fin 192, Ideal.logistic (m ((c : Thread nD τ).loc main_arg0) (cell b ((t * 2304 + r.val) * 192 + l.val)))
def targBlock (c : Dev nD) (b : Fin 3) (t : ℕ) : EReal :=
  ∑ r : Fin 2304, ∑ l : Fin 192, m ((c : Thread nD τ).loc main_arg1) (cell b ((t * 2304 + r.val) * 192 + l.val))

/-- A step's update terms are the old values plus that step's block sums. -/
theorem inter_update (c : Dev nD) (t : Fin cfg0.N) (xo : FVec Ideal S3x1 .f32) (b : Fin 3) :
    k0_pay6 (F := Ideal) (logitBlk m c t) (targBlk m c t) xo (ix2 b (0 : Fin 1)) = xo (ix2 b (0 : Fin 1)) + interBlock m c b t.val := by
  refine (Step.inter_step _ _ _ b).trans (congrArg (_ + ·) ?_)
  exact Finset.sum_congr rfl fun r _ => Finset.sum_congr rfl fun l _ => by rw [logitBlk_apply, targBlk_apply]
theorem pred_update (c : Dev nD) (t : Fin cfg0.N) (xo : FVec Ideal S3x1 .f32) (b : Fin 3) :
    k0_pay7 (F := Ideal) (logitBlk m c t) xo (ix2 b (0 : Fin 1)) = xo (ix2 b (0 : Fin 1)) + predBlock m c b t.val := by
  refine (Step.pred_step _ _ b).trans (congrArg (_ + ·) ?_)
  exact Finset.sum_congr rfl fun r _ => Finset.sum_congr rfl fun l _ => by rw [logitBlk_apply]
theorem targ_update (c : Dev nD) (t : Fin cfg0.N) (xo : FVec Ideal S3x1 .f32) (b : Fin 3) :
    k0_pay8 (F := Ideal) (targBlk m c t) xo (ix2 b (0 : Fin 1)) = xo (ix2 b (0 : Fin 1)) + targBlock m c b t.val := by
  refine (Step.targ_step _ _ b).trans (congrArg (_ + ·) ?_)
  exact Finset.sum_congr rfl fun r _ => Finset.sum_congr rfl fun l _ => by rw [targBlk_apply]

/-- After step `n` each accumulator holds, for batch entry `b`, the sum of the block sums of steps `0 … n`. -/
theorem running (c : Dev nD) : ∀ (n : ℕ) (h : n < cfg0.N) (b : Fin 3),
    (outsAt0 m c n h).1 (ix2 b (0 : Fin 1)) = ∑ t ∈ Finset.range (n + 1), interBlock m c b t
    ∧ (outsAt0 m c n h).2.1 (ix2 b (0 : Fin 1)) = ∑ t ∈ Finset.range (n + 1), predBlock m c b t
    ∧ (outsAt0 m c n h).2.2 (ix2 b (0 : Fin 1)) = ∑ t ∈ Finset.range (n + 1), targBlock m c b t
  | 0, h, b => by
    have e1 := first_inter m c ⟨0, h⟩ rfl
    have e2 := first_pred m c ⟨0, h⟩ rfl
    have e3 := first_targ m c ⟨0, h⟩ rfl
    dsimp only at e1 e2 e3
    rw [e1, e2, e3, Finset.sum_range_one, Finset.sum_range_one, Finset.sum_range_one]
    refine ⟨(inter_update m c ⟨0, h⟩ _ b).trans ?_, (pred_update m c ⟨0, h⟩ _ b).trans ?_, (targ_update m c ⟨0, h⟩ _ b).trans ?_⟩
    · rw [(Step.zero_cell _).1, zero_add]
    · rw [(Step.zero_cell _).2.1, zero_add]
    · rw [(Step.zero_cell _).2.2, zero_add]
  | n + 1, h, b => by
    have hN : cfg0.N = 16 := N_0
    have hB : ¬(⟨n + 1, h⟩ : Fin cfg0.N).val % 16 = 0 := by dsimp only; omega
    have e1 := later_inter m c ⟨n + 1, h⟩ hB
    have e2 := later_pred m c ⟨n + 1, h⟩ hB
    have e3 := later_targ m c ⟨n + 1, h⟩ hB
    dsimp only at e1 e2 e3
    obtain ⟨i1, i2, i3⟩ := running c n (Nat.lt_of_succ_lt h) b
    rw [e1, e2, e3, Finset.sum_range_succ _ (n + 1), Finset.sum_range_succ _ (n + 1), Finset.sum_range_succ _ (n + 1)]
    exact ⟨(inter_update m c ⟨n + 1, h⟩ _ b).trans (congrArg (· + _) i1),
      (pred_update m c ⟨n + 1, h⟩ _ b).trans (congrArg (· + _) i2),
      (targ_update m c ⟨n + 1, h⟩ _ b).trans (congrArg (· + _) i3)⟩

/-! ## The result arrays -/

/-- The inter accumulator after the last step, as contents of its result array. -/
abbrev interArr (c : Dev nD) : Buf (Elt Ideal) ((c : Thread nD τ).loc main_v2_0) := (outsAt0 m c t0_15.val t0_15.isLt).1

/-- The one write-back of this accumulator, after step 15, writes it whole: the block sits at offset zero and has the
    array's own extents, so a cell of the block is the same cell of the array. -/
theorem flushed_inter (c : Dev nD) (t : Fin cfg0.N) (hf : (cfg0.win 2).flush t = true) :
    (dats m 0 c).flushed 2 t = ((cfg0.win 2).blk t).view.read (Elt Ideal) (interArr m c) := by
  have hN : cfg0.N = 16 := N_0
  have h15 : t.val = 15 := by have := (flush0_2 t).mp hf; have := t.isLt; omega
  obtain rfl : t = t0_15 := Fin.ext h15
  show (cfg0.win 2).cut (grid0.coords t0_15) ((dats m 0 c).after 2 t0_15) = _
  rw [after0_2]
  funext j
  rw [View.read_apply]
  show interArr m c ((cfg0.win 2).xinj (grid0.coords t0_15) j) = interArr m c (((cfg0.win 2).blk t0_15).view.emb j)
  refine congrArg _ (funext fun a => Fin.ext ?_)
  show (j a).val = win0_2.index t0_15 a * S3x1.size a + 1 * (j a).val
  have hi : win0_2.index t0_15 a = 0 := by fin_cases a <;> decide +kernel
  rw [hi]; omega

/-- That block covers the array. -/
theorem cover_inter (c : Dev nD) (i : S3x1.Idx) :
    ∃ t : Fin cfg0.N, (cfg0.win 2).flush t = true ∧ i ∈ ((cfg0.win 2).blk t).view.set := by
  refine ⟨t0_15, (flush0_2 t0_15).mpr rfl, ?_⟩
  show i ∈ ((View.whole main_v2_0).slice (win0_2.rect t0_15)).set
  rw [View.set_slice_whole, Rect.mem_set_unit]
  intro a
  have hi : win0_2.index t0_15 a * win0_2.size a = 0 := by fin_cases a <;> decide +kernel
  have hx : win0_2.xsize (grid0.coords t0_15) a = S3x1.size a := by fin_cases a <;> decide +kernel
  have hlt : (i a).val < S3x1.size a := (i a).isLt
  show win0_2.index t0_15 a * win0_2.size a ≤ (i a).val ∧ (i a).val < win0_2.index t0_15 a * win0_2.size a + win0_2.xsize (grid0.coords t0_15) a
  rw [hi, hx]; omega

/-- So the result array ends holding the accumulator's last contents. -/
theorem final_inter (c : Dev nD) : (dats m 0 c).arrAt 2 cfg0.N = interArr m c :=
  (dats m 0 c).arrAt_eq_of_cover 2 (interArr m c) (flushed_inter m c) (cover_inter c)

/-- The pred accumulator after the last step, as contents of its result array. -/
abbrev predArr (c : Dev nD) : Buf (Elt Ideal) ((c : Thread nD τ).loc main_v2_1) := (outsAt0 m c t0_15.val t0_15.isLt).2.1

/-- The one write-back of this accumulator, after step 15, writes it whole: the block sits at offset zero and has the
    array's own extents, so a cell of the block is the same cell of the array. -/
theorem flushed_pred (c : Dev nD) (t : Fin cfg0.N) (hf : (cfg0.win 3).flush t = true) :
    (dats m 0 c).flushed 3 t = ((cfg0.win 3).blk t).view.read (Elt Ideal) (predArr m c) := by
  have hN : cfg0.N = 16 := N_0
  have h15 : t.val = 15 := by have := (flush0_3 t).mp hf; have := t.isLt; omega
  obtain rfl : t = t0_15 := Fin.ext h15
  show (cfg0.win 3).cut (grid0.coords t0_15) ((dats m 0 c).after 3 t0_15) = _
  rw [after0_3]
  funext j
  rw [View.read_apply]
  show predArr m c ((cfg0.win 3).xinj (grid0.coords t0_15) j) = predArr m c (((cfg0.win 3).blk t0_15).view.emb j)
  refine congrArg _ (funext fun a => Fin.ext ?_)
  show (j a).val = win0_3.index t0_15 a * S3x1.size a + 1 * (j a).val
  have hi : win0_3.index t0_15 a = 0 := by fin_cases a <;> decide +kernel
  rw [hi]; omega

/-- That block covers the array. -/
theorem cover_pred (c : Dev nD) (i : S3x1.Idx) :
    ∃ t : Fin cfg0.N, (cfg0.win 3).flush t = true ∧ i ∈ ((cfg0.win 3).blk t).view.set := by
  refine ⟨t0_15, (flush0_3 t0_15).mpr rfl, ?_⟩
  show i ∈ ((View.whole main_v2_1).slice (win0_3.rect t0_15)).set
  rw [View.set_slice_whole, Rect.mem_set_unit]
  intro a
  have hi : win0_3.index t0_15 a * win0_3.size a = 0 := by fin_cases a <;> decide +kernel
  have hx : win0_3.xsize (grid0.coords t0_15) a = S3x1.size a := by fin_cases a <;> decide +kernel
  have hlt : (i a).val < S3x1.size a := (i a).isLt
  show win0_3.index t0_15 a * win0_3.size a ≤ (i a).val ∧ (i a).val < win0_3.index t0_15 a * win0_3.size a + win0_3.xsize (grid0.coords t0_15) a
  rw [hi, hx]; omega

/-- So the result array ends holding the accumulator's last contents. -/
theorem final_pred (c : Dev nD) : (dats m 0 c).arrAt 3 cfg0.N = predArr m c :=
  (dats m 0 c).arrAt_eq_of_cover 3 (predArr m c) (flushed_pred m c) (cover_pred c)

/-- The targ accumulator after the last step, as contents of its result array. -/
abbrev targArr (c : Dev nD) : Buf (Elt Ideal) ((c : Thread nD τ).loc main_v2_2) := (outsAt0 m c t0_15.val t0_15.isLt).2.2

/-- The one write-back of this accumulator, after step 15, writes it whole: the block sits at offset zero and has the
    array's own extents, so a cell of the block is the same cell of the array. -/
theorem flushed_targ (c : Dev nD) (t : Fin cfg0.N) (hf : (cfg0.win 4).flush t = true) :
    (dats m 0 c).flushed 4 t = ((cfg0.win 4).blk t).view.read (Elt Ideal) (targArr m c) := by
  have hN : cfg0.N = 16 := N_0
  have h15 : t.val = 15 := by have := (flush0_4 t).mp hf; have := t.isLt; omega
  obtain rfl : t = t0_15 := Fin.ext h15
  show (cfg0.win 4).cut (grid0.coords t0_15) ((dats m 0 c).after 4 t0_15) = _
  rw [after0_4]
  funext j
  rw [View.read_apply]
  show targArr m c ((cfg0.win 4).xinj (grid0.coords t0_15) j) = targArr m c (((cfg0.win 4).blk t0_15).view.emb j)
  refine congrArg _ (funext fun a => Fin.ext ?_)
  show (j a).val = win0_4.index t0_15 a * S3x1.size a + 1 * (j a).val
  have hi : win0_4.index t0_15 a = 0 := by fin_cases a <;> decide +kernel
  rw [hi]; omega

/-- That block covers the array. -/
theorem cover_targ (c : Dev nD) (i : S3x1.Idx) :
    ∃ t : Fin cfg0.N, (cfg0.win 4).flush t = true ∧ i ∈ ((cfg0.win 4).blk t).view.set := by
  refine ⟨t0_15, (flush0_4 t0_15).mpr rfl, ?_⟩
  show i ∈ ((View.whole main_v2_2).slice (win0_4.rect t0_15)).set
  rw [View.set_slice_whole, Rect.mem_set_unit]
  intro a
  have hi : win0_4.index t0_15 a * win0_4.size a = 0 := by fin_cases a <;> decide +kernel
  have hx : win0_4.xsize (grid0.coords t0_15) a = S3x1.size a := by fin_cases a <;> decide +kernel
  have hlt : (i a).val < S3x1.size a := (i a).isLt
  show win0_4.index t0_15 a * win0_4.size a ≤ (i a).val ∧ (i a).val < win0_4.index t0_15 a * win0_4.size a + win0_4.xsize (grid0.coords t0_15) a
  rw [hi, hx]; omega

/-- So the result array ends holding the accumulator's last contents. -/
theorem final_targ (c : Dev nD) : (dats m 0 c).arrAt 4 cfg0.N = targArr m c :=
  (dats m 0 c).arrAt_eq_of_cover 4 (targArr m c) (flushed_targ m c) (cover_targ c)

/-! ## The closed forms: each result array holds its flat sum -/

theorem interArr_apply (c : Dev nD) (b : Fin 3) :
    interArr m c (ix2 b (0 : Fin 1)) = interSum (m ((c : Thread nD τ).loc main_arg0)) (m ((c : Thread nD τ).loc main_arg1)) (ix1 b) := by
  refine ((running m c t0_15.val t0_15.isLt b).1).trans ?_
  show ∑ t ∈ Finset.range 16, interBlock m c b t = _
  rw [Finset.sum_range]
  exact sum_blocks_rows_lanes fun n =>
    Ideal.logistic (m ((c : Thread nD τ).loc main_arg0) (cell b n)) * m ((c : Thread nD τ).loc main_arg1) (cell b n)

theorem predArr_apply (c : Dev nD) (b : Fin 3) :
    predArr m c (ix2 b (0 : Fin 1)) = predSum (m ((c : Thread nD τ).loc main_arg0)) (ix1 b) := by
  refine ((running m c t0_15.val t0_15.isLt b).2.1).trans ?_
  show ∑ t ∈ Finset.range 16, predBlock m c b t = _
  rw [Finset.sum_range]
  exact sum_blocks_rows_lanes fun n => Ideal.logistic (m ((c : Thread nD τ).loc main_arg0) (cell b n))

theorem targArr_apply (c : Dev nD) (b : Fin 3) :
    targArr m c (ix2 b (0 : Fin 1)) = targSum (m ((c : Thread nD τ).loc main_arg1)) (ix1 b) := by
  refine ((running m c t0_15.val t0_15.isLt b).2.2).trans ?_
  show ∑ t ∈ Finset.range 16, targBlock m c b t = _
  rw [Finset.sum_range]
  exact sum_blocks_rows_lanes (M := EReal) fun n => m ((c : Thread nD τ).loc main_arg1) (cell b n)

/-! ## The run: the kernel's result is the shared tail of the three flat sums -/

/-- A result array, re-shaped from a 3-by-1 column to three cells, is its flat sum per batch entry. -/
theorem inter_col (c : Dev nD) : (shapeCast S3 (interArr m c) shapeCasts_S3x1_S3 : FVec Ideal S3 .f32)
    = interSum (m ((c : Thread nD τ).loc main_arg0)) (m ((c : Thread nD τ).loc main_arg1)) := by
  funext j
  obtain ⟨b, rfl⟩ : ∃ b : Fin 3, j = ix1 b := ⟨j 0, eq_ix1 j⟩
  exact (Step.rowCast_apply (interArr m c) shapeCasts_S3x1_S3 b).trans (interArr_apply m c b)
theorem pred_col (c : Dev nD) : (shapeCast S3 (predArr m c) shapeCasts_S3x1_S3 : FVec Ideal S3 .f32)
    = predSum (m ((c : Thread nD τ).loc main_arg0)) := by
  funext j
  obtain ⟨b, rfl⟩ : ∃ b : Fin 3, j = ix1 b := ⟨j 0, eq_ix1 j⟩
  exact (Step.rowCast_apply (predArr m c) shapeCasts_S3x1_S3 b).trans (predArr_apply m c b)
theorem targ_col (c : Dev nD) : (shapeCast S3 (targArr m c) shapeCasts_S3x1_S3 : FVec Ideal S3 .f32)
    = targSum (m ((c : Thread nD τ).loc main_arg1)) := by
  funext j
  obtain ⟨b, rfl⟩ : ∃ b : Fin 3, j = ix1 b := ⟨j 0, eq_ix1 j⟩
  exact (Step.rowCast_apply (targArr m c) shapeCasts_S3x1_S3 b).trans (targArr_apply m c b)

/-- The buffers as the region leaves them: the result arrays at what the write-backs wrote, the rest as found. -/
abbrev left (c : Dev nD) : Valuation τ sig (Elt Ideal) :=
  Pipeline.withArrays (cfgs 0).spec c (V0 m c) fun w => (dats m 0 c).arrAt w (cfgs 0).N

theorem left_inter (c : Dev nD) : left m c (Proc.devRef .tc main_v2_0) = interArr m c :=
  (Pipeline.withArrays_arr spec0 launch0.win.arr_inj c _ _ 2).trans (final_inter m c)
theorem left_pred (c : Dev nD) : left m c (Proc.devRef .tc main_v2_1) = predArr m c :=
  (Pipeline.withArrays_arr spec0 launch0.win.arr_inj c _ _ 3).trans (final_pred m c)
theorem left_targ (c : Dev nD) : left m c (Proc.devRef .tc main_v2_2) = targArr m c :=
  (Pipeline.withArrays_arr spec0 launch0.win.arr_inj c _ _ 4).trans (final_targ m c)
theorem left_weight (c : Dev nD) : left m c (Proc.devRef .tc main_arg2) = m ((c : Thread nD τ).loc main_arg2) :=
  (Pipeline.withArrays_of_ne _ c (V0 m c) _ main_arg2 (by exact (by decide : ∀ w, Pipeline.arrRef spec0 w ≠ main_arg2))).trans
    (V_main_arg2 m c)

/-- After the region, the host lines compute the shared tail of the three result arrays and the weights. -/
theorem result_eq (c : Dev nD) :
    Pipeline.afterTail₀ cfgs (dats m) 0 (V0 m) [hostOps1] c main_v20
      = tail bcast_S_S3 reducesTo_S3_S_d0 h_S_
          (interSum (m ((c : Thread nD τ).loc main_arg0)) (m ((c : Thread nD τ).loc main_arg1)))
          (predSum (m ((c : Thread nD τ).loc main_arg0))) (targSum (m ((c : Thread nD τ).loc main_arg1)))
          (m ((c : Thread nD τ).loc main_arg2)) := by
  rw [← inter_col m c, ← pred_col m c, ← targ_col m c, ← left_inter m c, ← left_pred m c, ← left_targ m c]
  conv_rhs => rw [← left_weight m c]
  unfold Pipeline.afterTail₀
  show StableHlo.after hostOps1 _ (Proc.devRef .tc main_v20) = _
  after_results
  rfl

/-- The kernel's run, read: the result is the shared tail of the three flat sums and the weights, the arguments
    unchanged. -/
theorem run (ρ : Dev nD → PrngReg) :
    θ_run defs (onTc (τ := τ) (main (F := Ideal))) ⟨m, fun _ => 0, ρ⟩ fun r => ∀ c : Dev nD,
      r.2.mem ((c : Thread nD τ).loc main_v20)
          = tail bcast_S_S3 reducesTo_S3_S_d0 h_S_
              (interSum (m ((c : Thread nD τ).loc main_arg0)) (m ((c : Thread nD τ).loc main_arg1)))
              (predSum (m ((c : Thread nD τ).loc main_arg0))) (targSum (m ((c : Thread nD τ).loc main_arg1)))
              (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨((h c).2 main_v20 (Pipeline.mem_restRefs_of main_v20 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Acc

end
-- ==== Proof.RefSide.lean ====
/-
  The reference, read as the shared tail of three flat sums.

  The reference computes σ(pred) as `1 / (1 + exp(−pred))`, which over the extended reals is the logistic function by
  definition; flattens each batch entry's volume to one axis of 7077888 cells, the cell at flat position `k` being
  `cell b k`; and sums that axis from zero. So its three reductions are `interSum`, `predSum` and `targSum`, and
  what it does with them afterwards is `tail`.
-/
import proofs.«130817_j68908455297535_1_alg».proof.Proof.Gen.ReferenceIdeal.Run
import proofs.«130817_j68908455297535_1_alg».proof.Proof.Gen.ReferenceIdeal.Read
import proofs.«130817_j68908455297535_1_alg».proof.Proof.DiceSums
import Idealize.ShloMosaic.Lib.ValueIdx
import Idealize.ShloMosaic.PureOps.Ideal.Laws

noncomputable section

open Idealize.ShloMosaic Idealize.ShloMosaic.ValueIdx

namespace Cert.ReferenceIdeal.RefSide

open Cert.ReferenceIdeal Cert.ReferenceIdeal.Gen Cert.ReferenceIdeal.Read Cert.Dice

/-- Flat position `k` of batch entry `j` is read, through the reference's flattening, at `cell (j 0) k`. -/
theorem flat_cell (j : S3.Idx) (k : Fin 7077888) : idx_main_v6 (idx_main_v9 j k) = cell (j 0) k.val := by
  have hb : (j 0).val < 3 := (j 0).isLt
  have hk : k.val < 7077888 := k.isLt
  funext a
  apply Fin.ext
  match a with
  | ⟨0, _⟩ => show ((j 0).val * 7077888 + k.val) / 7077888 = (j 0).val; omega
  | ⟨1, _⟩ => rfl
  | ⟨2, _⟩ => show ((j 0).val * 7077888 + k.val) / 36864 % 192 = k.val / 36864 % 192; omega
  | ⟨3, _⟩ => show ((j 0).val * 7077888 + k.val) / 192 % 192 = k.val / 192 % 192; omega
  | ⟨4, _⟩ => show ((j 0).val * 7077888 + k.val) % 192 = k.val % 192; omega

/-- The reference's σ, cell by cell: `1 / (1 + exp(−x))` is the logistic function. -/
theorem sigma_apply (x0 : FVec Ideal S3x1x192x192x192 .f32) (i : S3x1x192x192x192.Idx) :
    val_main_v5 (F := Ideal) x0 i = Ideal.logistic (x0 i) := by
  rw [val_main_v5_apply, val_main_v4_apply, val_main_v3_apply, val_main_v2_apply, val_main_v1_apply, val_main_v0_apply,
    val_main_cst_apply, val_main_cst_0_apply]
  show Ideal.div (Ideal.ofBits .f32 0x3F800000#32) (Ideal.ofBits .f32 0x3F800000#32 + Ideal.exp (-(x0 i))) = Ideal.div 1 (1 + Ideal.exp (-(x0 i)))
  rw [one_word]

theorem inter_eq (x0 x1 : FVec Ideal S3x1x192x192x192 .f32) : val_main_v9 (F := Ideal) x0 x1 = interSum x0 x1 := by
  funext j
  rw [val_main_v9_apply, val_main_cst_1_apply]
  show Ideal.ofBits .f32 0x00000000#32 + _ = _
  rw [Ideal.ofBits_zero_f32, zero_add]
  refine Finset.sum_congr rfl fun k _ => ?_
  rw [val_main_v8_apply, val_main_v6_apply, val_main_v7_apply, sigma_apply]
  show Ideal.logistic (x0 (idx_main_v6 (idx_main_v9 j k))) * x1 (idx_main_v6 (idx_main_v9 j k)) = _
  rw [flat_cell]

theorem pred_eq (x0 : FVec Ideal S3x1x192x192x192 .f32) : val_main_v11 (F := Ideal) x0 = predSum x0 := by
  funext j
  rw [val_main_v11_apply, val_main_cst_2_apply]
  show Ideal.ofBits .f32 0x00000000#32 + _ = _
  rw [Ideal.ofBits_zero_f32, zero_add]
  refine Finset.sum_congr rfl fun k _ => ?_
  rw [val_main_v6_apply, sigma_apply]
  show Ideal.logistic (x0 (idx_main_v6 (idx_main_v9 j k))) = _
  rw [flat_cell]

theorem targ_eq (x1 : FVec Ideal S3x1x192x192x192 .f32) : val_main_v13 (F := Ideal) x1 = targSum x1 := by
  funext j
  rw [val_main_v13_apply, val_main_cst_3_apply]
  show Ideal.ofBits .f32 0x00000000#32 + _ = _
  rw [Ideal.ofBits_zero_f32, zero_add]
  refine Finset.sum_congr rfl fun k _ => ?_
  rw [val_main_v7_apply]
  show x1 (idx_main_v6 (idx_main_v9 j k)) = _
  rw [flat_cell]

/-- The reference's result is the shared tail of the three flat sums and the weights. -/
theorem result_eq (x0 x1 : FVec Ideal S3x1x192x192x192 .f32) (x2 : FVec Ideal S3 .f32) :
    val_main_v26 (F := Ideal) x0 x1 x2
      = tail bcast_S_S3 reducesTo_S3_S_d0 h_S_ (interSum x0 x1) (predSum x0) (targSum x1) x2 := by
  rw [← inter_eq, ← pred_eq, ← targ_eq]
  rfl

end Cert.ReferenceIdeal.RefSide

end
-- ==== Proof.lean ====
/-
  A Dice loss over three volumes of 192³ cells: per batch entry the three sums I = Σ σ(pred)·target, P = Σ σ(pred),
  T = Σ target over the volume (σ the logistic function), weighted, turned into the ratio
  (2·I·w + 1) / (P·w + T·w + 1), and the mean of one minus the ratio over the three entries.

  The kernel computes I, P and T by sixteen grid steps, each adding the sums of one block of 2304 rows of 192 lanes to
  three accumulators; the reference flattens each volume and sums it at once, with σ spelled 1 / (1 + exp(−x)). Over
  the extended reals these are the same three sums: that spelling of σ is the logistic function by definition, both
  programs read the five-axis inputs row-major, and a finite sum does not depend on how it is grouped (addition of
  extended reals is commutative and associative, so finiteness of the inputs is never used). What follows the sums is
  the same sequence of operations on the same literals in both programs, so it is carried as one function, never
  opened.

  The parts: the flat sums and the regrouping (DiceSums), the reference as that function of the flat sums (RefSide),
  what one step leaves in each accumulator (Pieces, StepValue), the accumulators step by step and the result arrays
  (Accumulate). Here: the three programs run to completion with their arguments unchanged, and the two idealized
  programs end with equal results.
-/
import proofs.«130817_j68908455297535_1_alg».proof.Defs
import proofs.«130817_j68908455297535_1_alg».proof.Proof.Gen.Kernel
import proofs.«130817_j68908455297535_1_alg».proof.Proof.Gen.Kernel.Frame
import proofs.«130817_j68908455297535_1_alg».proof.Proof.Gen.KernelIdeal
import proofs.«130817_j68908455297535_1_alg».proof.Proof.Gen.KernelIdeal.Frame
import proofs.«130817_j68908455297535_1_alg».proof.Proof.Gen.ReferenceIdeal
import proofs.«130817_j68908455297535_1_alg».proof.Proof.Gen.ReferenceIdeal.Run
import proofs.«130817_j68908455297535_1_alg».proof.Proof.Gen.ReferenceIdeal.Read
import proofs.«130817_j68908455297535_1_alg».proof.Proof.Gen.Pre_finite_inputs
import proofs.«130817_j68908455297535_1_alg».proof.Proof.Accumulate
import proofs.«130817_j68908455297535_1_alg».proof.Proof.RefSide
import Idealize.ShloMosaic.Adequacy
import Idealize.ShloMosaic.Init

noncomputable section

namespace Cert.Proof

open Idealize.ShloMosaic Idealize.SL.Sem

/-- The kernel as printed runs to completion and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- And the reference: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Over the extended reals both programs end holding the shared tail of the three flat sums of arguments that agree. -/
theorem algebraic : Cert.algebraic_KernelIdeal_ReferenceIdeal := by
  intro m ρ m' ρ' _ hagree
  refine ⟨_, Cert.KernelIdeal.Acc.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v26_eq, Cert.ReferenceIdeal.RefSide.result_eq, (hagree c).1, (hagree c).2.1,
    (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
